-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S300000x256 .f32) (main_arg1 : IVec S2x300000 32) (main_arg2 : IVec S300000 32) (main_arg3 : FVec F S256x256 .f32) (main_arg4 : FVec F S256 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S5000x256 : Shape := ⟨2, ![5000, 256]⟩
abbrev S_ : Shape := ⟨0, ![]⟩
abbrev S50000x256 : Shape := ⟨2, ![50000, 256]⟩
abbrev S300000x1 : Shape := ⟨2, ![300000, 1]⟩
abbrev S1x256 : Shape := ⟨2, ![1, 256]⟩

abbrev nBuf : Space → Nat
  | .hbm => 35
  | .vmem => 10
  | .smem => 0
  | _ => 0

abbrev bufTy : (tb : Table) → Fin (tcTables nBuf tb) → BufTy
  | .hbm, ⟨0, _⟩ => ⟨S300000x256, .f32⟩
  | .hbm, ⟨1, _⟩ => ⟨S2x300000, .i32⟩
  | .hbm, ⟨2, _⟩ => ⟨S300000, .i32⟩
  | .hbm, ⟨3, _⟩ => ⟨S256x256, .f32⟩
  | .hbm, ⟨4, _⟩ => ⟨S256, .f32⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S300000x256, .f32⟩
  | .hbm, ⟨10, _⟩ => ⟨S_, .f32⟩
  | .hbm, ⟨11, _⟩ => ⟨S50000x256, .f32⟩
  | .hbm, ⟨12, _⟩ => ⟨S300000x1, .i32⟩
  | .hbm, ⟨13, _⟩ => ⟨S50000x256, .f32⟩
  | .hbm, ⟨14, _⟩ => ⟨S_, .i32⟩
  | .hbm, ⟨15, _⟩ => ⟨S300000, .i32⟩
  | .hbm, ⟨16, _⟩ => ⟨S300000, .i1⟩
  | .hbm, ⟨17, _⟩ => ⟨S_, .i32⟩
  | .hbm, ⟨18, _⟩ => ⟨S300000, .i32⟩
  | .hbm, ⟨19, _⟩ => ⟨S300000, .i32⟩
  | .hbm, ⟨20, _⟩ => ⟨S300000, .i32⟩
  | .hbm, ⟨21, _⟩ => ⟨S300000x1, .i32⟩
  | .hbm, ⟨22, _⟩ => ⟨S300000x256, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S300000x256, .f32⟩
  | .hbm, ⟨33, _⟩ => ⟨S1x256, .f32⟩
  | .hbm, ⟨34, _⟩ => ⟨S300000x256, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S256x256, .f32⟩
  | .local _ .vmem, ⟨7, _⟩ => ⟨S1x256, .f32⟩
  | .local _ .vmem, ⟨8, _⟩ => ⟨S5000x256, .f32⟩
  | .local _ .vmem, ⟨9, _⟩ => ⟨S5000x256, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S300000_S300000x1_0 : S300000.BroadcastsInDim S300000x1 (![0] : Fin 1 → Fin S300000x1.rank)
  bcast_S_S300000 : S_.BroadcastsInDim S300000 (![] : Fin 0 → Fin S300000.rank)
  shapeCasts_S256_S1x256 : S256.ShapeCasts S1x256
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S50000x256_S300000x1_S300000x256_1_0_0_1_wf : ScatterDims.WF S50000x256 S300000x1 S300000x256 [1] [0] [0] 1
  gather_S50000x256_S300000x1_S300000x256_1_0_n_n_0_1_1256_wf : GatherDims.WF S50000x256 S300000x1 S300000x256 [1] [0] [] [0] [] 1 ![1, 256]
  gather_S300000x256_S300000x1_S300000x256_1_0_n_n_0_1_1256_wf : GatherDims.WF S300000x256 S300000x1 S300000x256 [1] [0] [] [0] [] 1 ![1, 256]
  dot_S5000x256_S256x256_S5000x256_1_1_0_0_n_n_wf : DotDims.WF S5000x256 S256x256 S5000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S300000x256.size a
  hwx0_0 : ∀ i : grid0.Coords, EltTy.bits .f32 = 32 ∨ (Rect.block (s := S300000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S300000x256.size a
  hwx0_1 : ∀ i : grid0.Coords, EltTy.bits .f32 = 32 ∨ (Rect.block (s := S300000x256) S5000x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S300000x256.size a
  hwx1_0 : ∀ i : grid1.Coords, EltTy.bits .f32 = 32 ∨ (Rect.block (s := S300000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S300000x256.size a
  hwx1_3 : ∀ i : grid1.Coords, EltTy.bits .f32 = 32 ∨ (Rect.block (s := S300000x256) S5000x256.size (cc1_transform_3 i) (hinb1_3 i)).WholeWords (EltTy.packing .f32)

variable [Facts₀]

def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S5000x256_S256x256_S5000x256_1_1_0_0_n_n : DotDims S5000x256 S256x256 S5000x256 where
  lhsContracting := [1]
  rhsContracting := [1]
  lhsNonContracting := [0]
  rhsNonContracting := [0]
  lhsBatch := []
  rhsBatch := []
  wf := dot_S5000x256_S256x256_S5000x256_1_1_0_0_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v22) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S50000x256 : Shape := ⟨2, ![50000, 256]⟩
abbrev S300000x1 : Shape := ⟨2, ![300000, 1]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S2x300000, .i32⟩
  | .hbm, ⟨2, _⟩ => ⟨S300000, .i32⟩
  | .hbm, ⟨3, _⟩ => ⟨S256x256, .f32⟩
  | .hbm, ⟨4, _⟩ => ⟨S256, .f32⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S_, .f32⟩
  | .hbm, ⟨10, _⟩ => ⟨S300000x256, .f32⟩
  | .hbm, ⟨11, _⟩ => ⟨S300000x256, .f32⟩
  | .hbm, ⟨12, _⟩ => ⟨S_, .f32⟩
  | .hbm, ⟨13, _⟩ => ⟨S50000x256, .f32⟩
  | .hbm, ⟨14, _⟩ => ⟨S300000x1, .i32⟩
  | .hbm, ⟨15, _⟩ => ⟨S50000x256, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x256, .f32⟩
  | .hbm, ⟨25, _⟩ => ⟨S_, .i32⟩
  | .hbm, ⟨26, _⟩ => ⟨S300000, .i32⟩
  | .hbm, ⟨27, _⟩ => ⟨S300000, .i1⟩
  | .hbm, ⟨28, _⟩ => ⟨S_, .i32⟩
  | .hbm, ⟨29, _⟩ => ⟨S300000, .i32⟩
  | .hbm, ⟨30, _⟩ => ⟨S300000, .i32⟩
  | .hbm, ⟨31, _⟩ => ⟨S300000, .i32⟩
  | .hbm, ⟨32, _⟩ => ⟨S300000x1, .i32⟩
  | .hbm, ⟨33, _⟩ => ⟨S300000x256, .f32⟩
  | .hbm, ⟨34, _⟩ => ⟨S300000x256, .f32⟩
  | .hbm, ⟨35, _⟩ => ⟨S256x256, .f32⟩
  | .hbm, ⟨36, _⟩ => ⟨S300000x256, .f32⟩
  | .hbm, ⟨37, _⟩ => ⟨S1x256, .f32⟩
  | .hbm, ⟨38, _⟩ => ⟨S300000x256, .f32⟩
  | .hbm, ⟨39, _⟩ => ⟨S300000x256, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000x256 : S_.BroadcastsInDim S300000x256 (![] : Fin 0 → Fin S300000x256.rank)
  bcast_S_S50000x256 : S_.BroadcastsInDim S50000x256 (![] : Fin 0 → Fin S50000x256.rank)
  bcast_S300000_S300000x1_0 : S300000.BroadcastsInDim S300000x1 (![0] : Fin 1 → Fin S300000x1.rank)
  bcast_S_S300000 : S_.BroadcastsInDim S300000 (![] : Fin 0 → Fin S300000.rank)
  transposes_S256x256_S256x256_1_0 : S256x256.Transposes [1, 0] S256x256
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  scatter_S50000x256_S300000x1_S300000x256_1_0_0_1_wf : ScatterDims.WF S50000x256 S300000x1 S300000x256 [1] [0] [0] 1
  gather_S50000x256_S300000x1_S300000x256_1_0_n_n_0_1_1256_wf : GatherDims.WF S50000x256 S300000x1 S300000x256 [1] [0] [] [0] [] 1 ![1, 256]
  gather_S300000x256_S300000x1_S300000x256_1_0_n_n_0_1_1256_wf : GatherDims.WF S300000x256 S300000x1 S300000x256 [1] [0] [] [0] [] 1 ![1, 256]
  dot_S300000x256_S256x256_S300000x256_1_0_0_1_n_n_wf : DotDims.WF S300000x256 S256x256 S300000x256 [1] [0] [0] [1] [] []

variable [Facts₀]

def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf

class Facts : Prop extends Facts₀ where

variable [Facts]
-- ==== Proof.HostMix.lean ====
/-
  The host chain between the two regions, named as ONE function.

  From the edge rows h, the [2, E] array of (source, destination) node indices and the reverse-edge indices it
  computes, for every edge, "the sum of h over the edges that end in my source node, minus h at my reverse edge":
  a scatter-add of h by destination into a zero [nodes, hidden] array, a gather of that array at the source index
  and a gather of h at the reverse index (a negative index counted from the end in both gathers), and the
  difference. Both programs apply exactly this chain to the positive part of E, so no proof opens it.
-/
import proofs.«158213_j1760936591674_1_alg».proof.Proof.Gen.KernelIdeal

noncomputable section

namespace Cert.KernelIdeal.Result

open Cert.KernelIdeal Cert.KernelIdeal.Gen
open Idealize.ShloMosaic

/-- The host chain between the two regions as one function: from the edge rows `h`, the [2, E] array of (source,
    destination) node indices and the reverse-edge indices, the rows "sum of h over the edges into my source node,
    minus h at my reverse edge". -/
def mix {F : FTy → Type} [FloatOps F] (h : (⟨S300000x256, .f32⟩ : BufTy).Contents (Elt F))
    (ei : (⟨S2x300000, .i32⟩ : BufTy).Contents (Elt F)) (rv : (⟨S300000, .i32⟩ : BufTy).Contents (Elt F)) :
    (⟨S300000x256, .f32⟩ : BufTy).Contents (Elt F) :=
  subf
    (Host.gather gather_S50000x256_S300000x1_S300000x256_1_0_n_n_0_1_1256
      (Host.scatterAdd scatter_S50000x256_S300000x1_S300000x256_1_0_0_1
        (broadcastInDim S50000x256 ![] bcast_S_S50000x256 (constant S_ .f32 0x00000000#32))
        (broadcastInDim S300000x1 ![0] bcast_S300000_S300000x1_0
          (shapeCast _ (extractStridedSlice S1x300000 ![1, 0] ei slices_S2x300000_S1x300000_1_0) shapeCasts_S1x300000_S300000))
        h)
      (broadcastInDim S300000x1 ![0] bcast_S300000_S300000x1_0
        (select
          (cmpi .slt (shapeCast _ (extractStridedSlice S1x300000 ![0, 0] ei slices_S2x300000_S1x300000_0_0) shapeCasts_S1x300000_S300000)
            (broadcastInDim S300000 ![] bcast_S_S300000 (constantI S_ 32 0#32)))
          (addi (shapeCast _ (extractStridedSlice S1x300000 ![0, 0] ei slices_S2x300000_S1x300000_0_0) shapeCasts_S1x300000_S300000)
            (broadcastInDim S300000 ![] bcast_S_S300000 (constantI S_ 32 50000#32)))
          (shapeCast _ (extractStridedSlice S1x300000 ![0, 0] ei slices_S2x300000_S1x300000_0_0) shapeCasts_S1x300000_S300000))))
    (Host.gather gather_S300000x256_S300000x1_S300000x256_1_0_n_n_0_1_1256 h
      (broadcastInDim S300000x1 ![0] bcast_S300000_S300000x1_0
        (select (cmpi .slt rv (broadcastInDim S300000 ![] bcast_S_S300000 (constantI S_ 32 0#32)))
          (addi rv (broadcastInDim S300000 ![] bcast_S_S300000 (constantI S_ 32 300000#32)))
          rv)))

end Cert.KernelIdeal.Result

end
-- ==== Proof.EdgeSpec.lean ====
/-
  The edge update, as functions of whole arrays.

  Every edge e carries a feature row E e. The update is
    H     = max (E, 0)                                  (entry by entry)
    M_uv  = mix H                                       (sum H into the destination nodes, read the sum back at the
                                                         source node, subtract the reverse edge's row)
    out   = M_uv · Wᵀ + b                               (row e of M_uv against row j of W, plus b j)
  `mix` is the same chain of host operations in both programs and is never opened here; written out are the
  two ends: the positive part, entry by entry, and the linear map, whose entry (e, j) is the sum over k of
  M_uv (e, k) · W (j, k) plus b j.
-/
import Idealize.ShloMosaic.Lib.ValueIdx
import Idealize.ShloMosaic.PureOps.Ideal.Laws

noncomputable section

namespace Cert.EdgeUpdate

open Idealize.ShloMosaic Idealize.ShloMosaic.ValueIdx

/-- The positive part of an array, entry by entry: max (x, 0), the zero being the float zero word. -/
def positivePart {F : FTy → Type} [FloatOps F] {s : Shape} (x : FVec F s .f32) : FVec F s .f32 :=
  fun i => FloatOps.maximumf (x i) (FloatOps.ofBits .f32 0x00000000#32)

/-- The linear map on rows over the extended reals: entry (e, j) is the sum over k of x (e, k) · w (j, k), plus the
    bias row's entry j. The weight is read with its OUTPUT axis first, the bias as a one-row matrix. -/
def linearRows {M N K : ℕ} (x : (⟨2, ![M, K]⟩ : Shape).Idx → EReal) (w : (⟨2, ![N, K]⟩ : Shape).Idx → EReal)
    (b : (⟨2, ![1, N]⟩ : Shape).Idx → EReal) : (⟨2, ![M, N]⟩ : Shape).Idx → EReal :=
  fun i => (∑ k : Fin K, x (ix2 ⟨(i 0).val, idx2_lt0 i⟩ k) * w (ix2 ⟨(i 1).val, idx2_lt1 i⟩ k))
    + b (ix2 (0 : Fin 1) ⟨(i 1).val, idx2_lt1 i⟩)

/-- The linear map at an index written by its coordinates. -/
theorem linearRows_apply {M N K : ℕ} (x : (⟨2, ![M, K]⟩ : Shape).Idx → EReal) (w : (⟨2, ![N, K]⟩ : Shape).Idx → EReal)
    (b : (⟨2, ![1, N]⟩ : Shape).Idx → EReal) (r : Fin M) (c : Fin N) :
    linearRows x w b (ix2 r c) = (∑ k : Fin K, x (ix2 r k) * w (ix2 c k)) + b (ix2 (0 : Fin 1) c) := rfl

end Cert.EdgeUpdate

end
-- ==== Proof.ReluRegion.lean ====
/-
  The first region, read as a value: after its run the region's output array holds the positive part of its
  input array, whatever the buffers hold when the region is entered.

  Grid point t handles rows 5000·t … 5000·t + 4999: it loads that block of the input, takes max (·, 0) entry by
  entry and stores the block of the same rows of the output. Input and output blocks sit at the same place, the
  sixty blocks tile the 300000 rows, so the whole output array is the positive part of the whole input array.
-/
import proofs.«158213_j1760936591674_1_alg».proof.Proof.Gen.KernelIdeal.Frame
import proofs.«158213_j1760936591674_1_alg».proof.Proof.EdgeSpec
import Idealize.ShloMosaic.Lib.Pipeline.Value

set_option maxRecDepth 16384

noncomputable section

namespace Cert.KernelIdeal.ReluRegion

open Cert.KernelIdeal Cert.KernelIdeal.Gen Cert.EdgeUpdate
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The region's input array as it is entered, at its literal type. -/
abbrev inArr (c : Dev nD) : FVec F S300000x256 .f32 := V c main_arg0

/-- What the body stores is the positive part of the block it loaded. -/
theorem payload_eq (x0 : Vec F S5000x256 .f32) : k0_pay1 x0 = positivePart (s := S5000x256) x0 := rfl

/-- Over the grid: the input block and the output block of a point sit at the same block index, which is
    (t, 0). -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point t writes back is block t of the positive part of the input array. -/
theorem flushed_eq (c : Dev nD) (t : Fin cfg0.N) :
    (dat0 V c).flushed 1 t = ((cfg0.win 1).blk t).view.read (Elt F) (positivePart (inArr V c)) := by
  show (cfg0.win 1).cut (grid0.coords t) ((dat0 V c).after 1 t) = _
  rw [after0_1]
  unfold out0_1
  rw [View.canon_unit_zero origin]
  simp only [View.ld_unit_zero (S := S5000x256) origin]
  rw [payload_eq]
  obtain ⟨e0, e1, -, -⟩ := block_index t
  funext j
  show FloatOps.maximumf (V c main_arg0 (((cfg0.win 0).blk t).view.emb j)) _ = FloatOps.maximumf (V c main_arg0 (((cfg0.win 1).blk t).view.emb j)) _
  have h0 : ((cfg0.win 0).blk t).view.emb j = ((cfg0.win 1).blk t).view.emb j := by
    funext a; apply Fin.ext
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 256 + 1 * (j 1).val = win0_1.index t (1 : Fin 2) * 256 + 1 * (j 1).val; omega
  rw [h0]

/-- An index of the output array lies in point t's block iff each coordinate lies in the block's range. -/
theorem mem_block (t : Fin cfg0.N) (i : S300000x256.Idx) :
    i ∈ ((cfg0.win 1).blk t).view.set ↔ ∀ a : Fin 2, win0_1.index t a * S5000x256.size a ≤ (i a).val ∧ (i a).val < win0_1.index t a * S5000x256.size a + S5000x256.size a := by
  show i ∈ ((View.whole main_v4).slice (win0_1.rect t)).set ↔ _
  rw [View.set_slice_whole, Rect.mem_set_unit]
  exact Iff.rfl

/-- Every row is in the block of the point row / 5000. -/
theorem covered (i : S300000x256.Idx) : ∃ t : Fin cfg0.N, (cfg0.win 1).flush t = true ∧ i ∈ ((cfg0.win 1).blk t).view.set := by
  have hi0 : (i 0).val < 300000 := (i 0).isLt
  have hi1 : (i 1).val < 256 := (i 1).isLt
  have hN : cfg0.N = 60 := N_0
  refine ⟨⟨(i 0).val / 5000, by rw [hN]; omega⟩, flush0_1 _, ?_⟩
  rw [mem_block]
  obtain ⟨-, -, e2, e3⟩ := block_index ⟨(i 0).val / 5000, by rw [hN]; omega⟩
  intro a
  match a with
  | ⟨0, _⟩ =>
    show win0_1.index _ (0 : Fin 2) * 5000 ≤ (i 0).val ∧ (i 0).val < win0_1.index _ (0 : Fin 2) * 5000 + 5000
    rw [e2]; show (i 0).val / 5000 * 5000 ≤ (i 0).val ∧ (i 0).val < (i 0).val / 5000 * 5000 + 5000; omega
  | ⟨1, _⟩ =>
    show win0_1.index _ (1 : Fin 2) * 256 ≤ (i 1).val ∧ (i 1).val < win0_1.index _ (1 : Fin 2) * 256 + 256
    rw [e3]; omega

/-- After the region the output array is the positive part of the input array as the region found it. -/
theorem out_eq (c : Dev nD) : (dat0 V c).arrAt 1 cfg0.N = positivePart (inArr V c) :=
  (dat0 V c).arrAt_eq_of_cover 1 (positivePart (inArr V c)) (fun t _ => flushed_eq V c t) covered

end Cert.KernelIdeal.ReluRegion

end
-- ==== Proof.LibMatmulTransposedRhs.lean ====
/-
  A matrix product A · Bᵀ — a left operand [M, K] against a right operand stored [N, K], both contracted on their last
  axis, no batch axes (`DotDims.transposedRhs M K N`) — into the zero accumulator, read at an entry over the extended
  reals: entry (r, c) is the sum over k of a (r, k) · b (c, k). The left operand is read at the output's row and the
  contraction coordinate, the right one at the output's COLUMN and the contraction coordinate. Stated at any extents,
  with every index written by its coordinates.
-/
import Idealize.ShloMosaic.Lib.ValueIdx
import Idealize.ShloMosaic.PureOps.Ideal.Laws

noncomputable section

namespace Cert.MatmulTransposedRhs

open Idealize.ShloMosaic Idealize.ShloMosaic.ValueIdx

variable {M K N : ℕ}

/-- The left operand's first coordinate is the output's row: its axis 0 is the one kept axis of the left side, and
    the kept left axes come first among the output's. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The left operand's second coordinate is the contraction coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's first coordinate is the output's COLUMN: its axis 0 is the one kept axis of the right side,
    which comes after the left side's kept axis among the output's. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The right operand's second coordinate is the contraction coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- Entry (r, c) of A · Bᵀ into the zero accumulator is the sum over k of a (r, k) · b (c, k). -/
theorem apply (prec : Option ContractPrecision) {φ₁ φ₂ : FTy} (a : FVec Ideal ⟨2, ![M, K]⟩ φ₁) (b : FVec Ideal ⟨2, ![N, K]⟩ φ₂)
    (r : Fin M) (c : Fin N) :
    FloatOps.matmul (DotDims.transposedRhs M K N) prec a b (constant ⟨2, ![M, N]⟩ .f32 0x00000000#32) (ix2 r c)
      = ∑ k : Fin K, a (ix2 r k) * b (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun x => Fin.ext (by
      match x with
      | ⟨0, _⟩ => exact lhs_row _ _
      | ⟨1, _⟩ => exact (lhs_col _ _).trans hk)
  have er : (DotDims.transposedRhs M K N).rhsIdx (ix2 r c) ((contrEquiv1 (DotDims.transposedRhs M K N) K rfl rfl).symm k)
      = ix2 c k :=
    funext fun x => Fin.ext (by
      match x with
      | ⟨0, _⟩ => exact rhs_row _ _
      | ⟨1, _⟩ => exact (rhs_col _ _).trans hk)
  rw [el, er]

end Cert.MatmulTransposedRhs

end
-- ==== Proof.LinearRegion.lean ====
/-
  The second region, read as a value over the extended reals: after its run the region's output array holds the
  linear map of its three input arrays, whatever the buffers hold when the region is entered.

  Grid point t handles rows 5000·t … 5000·t + 4999 of the edge array x. It loads that block, the whole weight
  w ([256, 256], output axis first) and the bias row b ([1, 256]), contracts the block with w over the last axis of
  both — the narrowing of both operands to bf16 is the identity on extended reals —, adds b to every row and stores
  the block of the same rows of the output. Entry (e, j) of the output is therefore Σ_k x (e, k) · w (j, k) + b (0, j);
  the sixty blocks tile the 300000 rows.
-/
import proofs.«158213_j1760936591674_1_alg».proof.Proof.Gen.KernelIdeal.Frame
import proofs.«158213_j1760936591674_1_alg».proof.Proof.EdgeSpec
import proofs.«158213_j1760936591674_1_alg».proof.Proof.LibMatmulTransposedRhs
import Idealize.ShloMosaic.Lib.Pipeline.Value
import Idealize.ShloMosaic.Lib.ValueIdx

set_option maxRecDepth 16384

noncomputable section

namespace Cert.KernelIdeal.LinearRegion

open Cert.KernelIdeal Cert.KernelIdeal.Gen Cert.EdgeUpdate
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The region's three input arrays as it is entered, at their literal types. -/
abbrev xArr (c : Dev nD) : FVec Ideal S300000x256 .f32 := V c main_v22
abbrev wArr (c : Dev nD) : FVec Ideal S256x256 .f32 := V c main_arg3
abbrev bArr (c : Dev nD) : FVec Ideal S1x256 .f32 := V c main_v23

/-! ## The body's arithmetic at an entry -/

/-- The product of a block with the weight, both contracted on their last axis, into the zero accumulator: entry
    (p, q) is Σ_k a (p, k) · b (q, k). -/
theorem product_entry (a : FVec Ideal S5000x256 .bf16) (b : FVec Ideal S256x256 .bf16) (p : Fin 5000) (q : Fin 256) :
    matmul dot_S5000x256_S256x256_S5000x256_1_1_0_0_n_n none a b (constant S5000x256 .f32 0x00000000#32) (ix2 p q)
      = ∑ k : Fin 256, a (ix2 p k) * b (ix2 q k) :=
  Cert.MatmulTransposedRhs.apply none a b p q

/-- The bias row broadcast over the block's rows: entry (p, q) is b (0, q). -/
theorem bias_entry (x2 : FVec Ideal S1x256 .f32) (p : Fin 5000) (q : Fin 256) :
    broadcastTo S5000x256 x2 broadcasts_S1x256_S5000x256 (ix2 p q) = x2 (ix2 (0 : Fin 1) q) :=
  broadcastTo_apply x2 broadcasts_S1x256_S5000x256 (ix2 p q) (ix2 (0 : Fin 1) q) (fun a => match a with
    | ⟨0, _⟩ => by show (0 : ℕ) = if (1 : ℕ) = 1 then 0 else _; rw [if_pos rfl]
    | ⟨1, _⟩ => by show q.val = if (256 : ℕ) = 1 then 0 else q.val; rw [if_neg (by decide)])

/-- What the body stores, at entry (p, q): Σ_k x0 (p, k) · x1 (q, k) + x2 (0, q). -/
theorem payload_apply (x0 : Vec Ideal S5000x256 .f32) (x1 : Vec Ideal S256x256 .f32) (x2 : Vec Ideal S1x256 .f32)
    (p : Fin 5000) (q : Fin 256) :
    k1_pay1 x0 x1 x2 (ix2 p q) = (∑ k : Fin 256, x0 (ix2 p k) * x1 (ix2 q k)) + x2 (ix2 (0 : Fin 1) q) := by
  unfold k1_pay1
  simp only [shapeCast_self]
  rw [addf_apply, product_entry, bias_entry]
  rfl

/-- One point's stored entry against the whole-array function: if the point's first block is rows n·5000 … of x,
    its second block is w and its third is b, then the entry stored at j is the linear map's entry at the array
    index i with row n·5000 + j₀ and column j₁. -/
theorem point_value (X : FVec Ideal S300000x256 .f32) (W : FVec Ideal S256x256 .f32) (B : FVec Ideal S1x256 .f32)
    (x0 : Vec Ideal S5000x256 .f32) (x1 : Vec Ideal S256x256 .f32) (x2 : Vec Ideal S1x256 .f32)
    (n : ℕ) (j : S5000x256.Idx) (i : S300000x256.Idx)
    (hx0 : ∀ (p : Fin 5000) (k : Fin 256) (hp : n * 5000 + p.val < 300000), x0 (ix2 p k) = X (ix2 ⟨n * 5000 + p.val, hp⟩ k))
    (hx1 : x1 = W) (hx2 : x2 = B)
    (hi0 : (i 0).val = n * 5000 + (j 0).val) (hi1 : (i 1).val = (j 1).val) :
    k1_pay1 x0 x1 x2 j = linearRows X W B i := by
  obtain ⟨p, q, rfl⟩ : ∃ (p : Fin 5000) (q : Fin 256), j = ix2 p q := ⟨j 0, j 1, eq_ix2 j⟩
  subst hx1 hx2
  rw [payload_apply]
  have hp : n * 5000 + p.val < 300000 := by
    have := idx2_lt0 i
    have h : (i 0).val = n * 5000 + p.val := hi0
    omega
  have e0 : (⟨(i 0).val, idx2_lt0 i⟩ : Fin 300000) = ⟨n * 5000 + p.val, hp⟩ := Fin.ext hi0
  have e1 : (⟨(i 1).val, idx2_lt1 i⟩ : Fin 256) = q := Fin.ext hi1
  show _ = (∑ k : Fin 256, X (ix2 ⟨(i 0).val, idx2_lt0 i⟩ k) * x1 (ix2 ⟨(i 1).val, idx2_lt1 i⟩ k))
    + x2 (ix2 (0 : Fin 1) ⟨(i 1).val, idx2_lt1 i⟩)
  rw [e0, e1]
  refine congrArg₂ (· + ·) (Finset.sum_congr rfl fun k _ => ?_) rfl
  rw [hx0 p k hp]

/-! ## The blocks of a point -/

/-- Over the grid: the edge block and the output block of point t sit at block index (t, 0); the weight and the
    bias are one block, at (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The edge block of point t is rows 5000·t … of the edge array. -/
theorem edge_block (c : Dev nD) (t : Fin cfg1.N) (y : S5000x256.Idx) (k : S300000x256.Idx)
    (hk0 : (k 0).val = t.val * 5000 + (y 0).val) (hk1 : (k 1).val = (y 1).val) :
    (iblk1 V c 0 t : Vec Ideal S5000x256 .f32) y = xArr V c k := by
  obtain ⟨e0, e1, -⟩ := block_index t
  unfold iblk1
  rw [View.read_apply]
  show V c main_v22 _ = V c main_v22 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 256 + 1 * (y 1).val = (k 1).val; rw [e1, hk1]; omega

/-- The weight block of every point is the whole weight. -/
theorem weight_block (c : Dev nD) (t : Fin cfg1.N) : (iblk1 V c 1 t : Vec Ideal S256x256 .f32) = wArr V c := by
  obtain ⟨-, -, e0, e1, -⟩ := block_index t
  funext y
  unfold iblk1
  rw [View.read_apply]
  show V c main_arg3 _ = V c main_arg3 _
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 256 + 1 * (y 1).val = (y 1).val; rw [e1]; omega

/-- The bias block of every point is the whole bias row. -/
theorem bias_block (c : Dev nD) (t : Fin cfg1.N) : (iblk1 V c 2 t : Vec Ideal S1x256 .f32) = bArr V c := by
  obtain ⟨-, -, -, -, e0, e1, -⟩ := block_index t
  funext y
  unfold iblk1
  rw [View.read_apply]
  show V c main_v23 _ = V c main_v23 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-! ## From the blocks to the array -/

/-- What point t writes back is block t of the linear map of the three input arrays. -/
theorem flushed_eq (c : Dev nD) (t : Fin cfg1.N) :
    (dat1 V c).flushed 3 t = ((cfg1.win 3).blk t).view.read (Elt Ideal) (linearRows (xArr V c) (wArr V c) (bArr V c)) := by
  show (cfg1.win 3).cut (grid1.coords t) ((dat1 V c).after 3 t) = _
  rw [after1_3]
  unfold out1_3
  rw [View.canon_unit_zero origin]
  simp only [View.ld_unit_zero (S := S5000x256) origin, View.ld_unit_zero (S := S256x256) origin, View.ld_unit_zero (S := S1x256) origin]
  obtain ⟨-, -, -, -, -, -, e0, e1⟩ := block_index t
  funext j
  show k1_pay1 (iblk1 V c 0 t) (iblk1 V c 1 t) (iblk1 V c 2 t) j
    = linearRows (xArr V c) (wArr V c) (bArr V c) (((cfg1.win 3).blk t).view.emb j)
  refine point_value (xArr V c) (wArr V c) (bArr V c) (iblk1 V c 0 t) (iblk1 V c 1 t) (iblk1 V c 2 t) t.val j _ ?_
    (weight_block V c t) (bias_block V c t) ?_ ?_
  · intro p k hp
    exact edge_block V c t (ix2 p k) (ix2 ⟨t.val * 5000 + p.val, hp⟩ k) rfl rfl
  · show win1_3.index t (0 : Fin 2) * 5000 + 1 * (j 0).val = t.val * 5000 + (j 0).val; rw [e0]; omega
  · show win1_3.index t (1 : Fin 2) * 256 + 1 * (j 1).val = (j 1).val; rw [e1]; omega

/-- An index of the output array lies in point t's block iff each coordinate lies in the block's range. -/
theorem mem_block (t : Fin cfg1.N) (i : S300000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v24).slice (win1_3.rect t)).set ↔ _
  rw [View.set_slice_whole, Rect.mem_set_unit]
  exact Iff.rfl

/-- Every row is in the block of the point row / 5000. -/
theorem covered (i : S300000x256.Idx) : ∃ t : Fin cfg1.N, (cfg1.win 3).flush t = true ∧ i ∈ ((cfg1.win 3).blk t).view.set := by
  have hi0 : (i 0).val < 300000 := (i 0).isLt
  have hi1 : (i 1).val < 256 := (i 1).isLt
  have hN : cfg1.N = 60 := N_1
  refine ⟨⟨(i 0).val / 5000, by rw [hN]; omega⟩, flush1_3 _, ?_⟩
  rw [mem_block]
  obtain ⟨-, -, -, -, -, -, e2, e3⟩ := block_index ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e2]; show (i 0).val / 5000 * 5000 ≤ (i 0).val ∧ (i 0).val < (i 0).val / 5000 * 5000 + 5000; omega
  | ⟨1, _⟩ =>
    show win1_3.index _ (1 : Fin 2) * 256 ≤ (i 1).val ∧ (i 1).val < win1_3.index _ (1 : Fin 2) * 256 + 256
    rw [e3]; omega

/-- After the region the output array is the linear map of the three input arrays as the region found them. -/
theorem out_eq (c : Dev nD) : (dat1 V c).arrAt 3 cfg1.N = linearRows (xArr V c) (wArr V c) (bArr V c) :=
  (dat1 V c).arrAt_eq_of_cover 3 (linearRows (xArr V c) (wArr V c) (bArr V c)) (fun t _ => flushed_eq V c t) covered

end Cert.KernelIdeal.LinearRegion

end
-- ==== Proof.KernelValue.lean ====
/-
  The kernel program's result as one function of its arguments, over the extended reals.

  Between the two regions the program mixes the edge rows on the host: it adds the rows of H into their destination
  nodes, reads the node sums back at each edge's source node and subtracts the row of the reverse edge (negative
  indices counted from the end). `mix` names that chain of host operations as ONE function of H and the two index
  arrays; nothing here opens it. The result array is then
      linearRows (mix (positivePart E) edge_index rev_index) W (b as a one-row matrix):
  the first region leaves positivePart E in its output array, the host chain reads that array and the index arrays
  (which no region touches), and the second region applies the linear map to what the chain wrote.
-/
import proofs.«158213_j1760936591674_1_alg».proof.Proof.KernelRun
import proofs.«158213_j1760936591674_1_alg».proof.Proof.HostMix
import proofs.«158213_j1760936591674_1_alg».proof.Proof.ReluRegion
import proofs.«158213_j1760936591674_1_alg».proof.Proof.LinearRegion
import Idealize.ShloMosaic.Lib.StableHlo.Run

set_option maxRecDepth 16384

noncomputable section

namespace Cert.KernelIdeal.Result

open Cert.KernelIdeal Cert.KernelIdeal.Gen Cert.EdgeUpdate
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the first host stretch leaves: the two rows of the node-index array, the arguments untouched -/

theorem entry_arg0 (c : Dev nD) : W1 m ρ c (Proc.devRef .tc main_arg0) = m ((c : Thread nD τ).loc main_arg0) := by
  dsimp only [W1, hostOps0]; after_results <;> rfl
theorem entry_arg2 (c : Dev nD) : W1 m ρ c (Proc.devRef .tc main_arg2) = m ((c : Thread nD τ).loc main_arg2) := by
  dsimp only [W1, hostOps0]; after_results <;> rfl
theorem entry_arg3 (c : Dev nD) : W1 m ρ c (Proc.devRef .tc main_arg3) = m ((c : Thread nD τ).loc main_arg3) := by
  dsimp only [W1, hostOps0]; after_results <;> rfl
theorem entry_arg4 (c : Dev nD) : W1 m ρ c (Proc.devRef .tc main_arg4) = m ((c : Thread nD τ).loc main_arg4) := by
  dsimp only [W1, hostOps0]; after_results <;> rfl
/-- The source nodes: row 0 of the node-index array. -/
theorem entry_src (c : Dev nD) : W1 m ρ c (Proc.devRef .tc main_v1)
    = shapeCast _ (extractStridedSlice S1x300000 ![0, 0] (m ((c : Thread nD τ).loc main_arg1)) slices_S2x300000_S1x300000_0_0) shapeCasts_S1x300000_S300000 := by
  dsimp only [W1, hostOps0]; after_results <;> rfl
/-- The destination nodes: row 1 of the node-index array. -/
theorem entry_dst (c : Dev nD) : W1 m ρ c (Proc.devRef .tc main_v3)
    = shapeCast _ (extractStridedSlice S1x300000 ![1, 0] (m ((c : Thread nD τ).loc main_arg1)) slices_S2x300000_S1x300000_1_0) shapeCasts_S1x300000_S300000 := by
  dsimp only [W1, hostOps0]; after_results <;> rfl

/-! ## What the first region leaves: its output array at the positive part of E, everything else as entered -/

theorem mid_relu (c : Dev nD) : W2 m ρ c (Proc.devRef .tc main_v4) = positivePart (F := Ideal) (s := S300000x256) (m ((c : Thread nD τ).loc main_arg0)) :=
  (W2_arr m ρ c 1).trans ((Cert.KernelIdeal.ReluRegion.out_eq (V1 m ρ) c).trans
    (congrArg (positivePart (F := Ideal) (s := S300000x256)) (entry_arg0 m ρ c)))
theorem mid_src (c : Dev nD) : W2 m ρ c (Proc.devRef .tc main_v1)
    = shapeCast _ (extractStridedSlice S1x300000 ![0, 0] (m ((c : Thread nD τ).loc main_arg1)) slices_S2x300000_S1x300000_0_0) shapeCasts_S1x300000_S300000 :=
  (W2_of_ne m ρ c main_v1 (by decide)).trans (entry_src m ρ c)
theorem mid_dst (c : Dev nD) : W2 m ρ c (Proc.devRef .tc main_v3)
    = shapeCast _ (extractStridedSlice S1x300000 ![1, 0] (m ((c : Thread nD τ).loc main_arg1)) slices_S2x300000_S1x300000_1_0) shapeCasts_S1x300000_S300000 :=
  (W2_of_ne m ρ c main_v3 (by decide)).trans (entry_dst m ρ c)
theorem mid_arg2 (c : Dev nD) : W2 m ρ c (Proc.devRef .tc main_arg2) = m ((c : Thread nD τ).loc main_arg2) :=
  (W2_of_ne m ρ c main_arg2 (by decide)).trans (entry_arg2 m ρ c)
theorem mid_arg3 (c : Dev nD) : W2 m ρ c (Proc.devRef .tc main_arg3) = m ((c : Thread nD τ).loc main_arg3) :=
  (W2_of_ne m ρ c main_arg3 (by decide)).trans (entry_arg3 m ρ c)
theorem mid_arg4 (c : Dev nD) : W2 m ρ c (Proc.devRef .tc main_arg4) = m ((c : Thread nD τ).loc main_arg4) :=
  (W2_of_ne m ρ c main_arg4 (by decide)).trans (entry_arg4 m ρ c)

/-! ## What the second region is entered with -/

set_option maxHeartbeats 2000000 in
/-- The edge rows the second region reads are the host chain's result on the positive part of E. -/
theorem edge_in (c : Dev nD) : V3 m ρ c main_v22
    = mix (positivePart (F := Ideal) (s := S300000x256) (m ((c : Thread nD τ).loc main_arg0))) (m ((c : Thread nD τ).loc main_arg1)) (m ((c : Thread nD τ).loc main_arg2)) := by
  show StableHlo.after hostOps1 (W2 m ρ c) (Proc.devRef .tc main_v22) = _
  dsimp only [hostOps1]
  after_results_simp
  rw [mid_relu m ρ c, mid_src m ρ c, mid_dst m ρ c, mid_arg2 m ρ c]
  rfl
/-- The weight it reads is the argument. -/
theorem weight_in (c : Dev nD) : V3 m ρ c main_arg3 = m ((c : Thread nD τ).loc main_arg3) := by
  show StableHlo.after hostOps1 (W2 m ρ c) (Proc.devRef .tc main_arg3) = _
  dsimp only [hostOps1]
  after_results_simp
  exact mid_arg3 m ρ c
/-- The bias row it reads is the bias argument as a one-row matrix. -/
theorem bias_in (c : Dev nD) : V3 m ρ c main_v23 = shapeCast S1x256 (m ((c : Thread nD τ).loc main_arg4)) shapeCasts_S256_S1x256 := by
  show StableHlo.after hostOps1 (W2 m ρ c) (Proc.devRef .tc main_v23) = _
  dsimp only [hostOps1]
  after_results_simp
  rw [mid_arg4 m ρ c]
  rfl

/-! ## The result -/

/-- The program's result as a function of its arguments. -/
abbrev result (c : Dev nD) : Buf (Elt Ideal) ((c.tc : Thread nD τ).loc main_v24) :=
  linearRows (M := 300000) (N := 256) (K := 256)
    (mix (positivePart (F := Ideal) (s := S300000x256) (m ((c : Thread nD τ).loc main_arg0))) (m ((c : Thread nD τ).loc main_arg1)) (m ((c : Thread nD τ).loc main_arg2)))
    (m ((c : Thread nD τ).loc main_arg3))
    (shapeCast S1x256 (m ((c : Thread nD τ).loc main_arg4)) shapeCasts_S256_S1x256)

/-- The last boundary's contents at the result array. -/
theorem result_eq (c : Dev nD) : W4 m ρ c (Proc.devRef .tc main_v24) = result m c := by
  refine (W4_arr m ρ c 3).trans ((Cert.KernelIdeal.LinearRegion.out_eq (V3 m ρ) c).trans ?_)
  show linearRows (M := 300000) (N := 256) (K := 256) (V3 m ρ c main_v22) (V3 m ρ c main_arg3) (V3 m ρ c main_v23) = _
  rw [edge_in m ρ c, weight_in m ρ c, bias_in m ρ c]

/-- The run, read: the result array at `result`, the arguments as launched. -/
theorem run : θ_run defs (onTc (τ := τ) (main (F := Ideal))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run_named m ρ)

end Cert.KernelIdeal.Result

end
-- ==== Proof.RefValue.lean ====
/-
  The reference's result is the same function of the arguments as the kernel program's.

  The reference computes max (E, 0), applies the same host chain to it (`mix`), multiplies by the TRANSPOSED weight
  ("contract the rows' last axis with the transposed weight's first axis") and adds the bias broadcast over the
  rows. Entry (e, j): Σ_k M (e, k) · Wᵀ (k, j) + b j, and Wᵀ (k, j) = W (j, k), so this is the linear map on rows of
  EdgeSpec with the bias read as a one-row matrix. No law of the extended reals is needed beyond reading both
  sides at an index: the two sums have the same terms in the same order.
-/
import proofs.«158213_j1760936591674_1_alg».proof.Proof.Gen.ReferenceIdeal.Read
import proofs.«158213_j1760936591674_1_alg».proof.Proof.HostMix
import proofs.«158213_j1760936591674_1_alg».proof.Proof.EdgeSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.EdgeUpdate
open Idealize.ShloMosaic Idealize.ShloMosaic.ValueIdx
open Cert.KernelIdeal.Result (mix)

variable (x0 : (⟨S300000x256, .f32⟩ : BufTy).Contents (Elt Ideal)) (x1 : (⟨S2x300000, .i32⟩ : BufTy).Contents (Elt Ideal))
  (x2 : (⟨S300000, .i32⟩ : BufTy).Contents (Elt Ideal)) (x3 : (⟨S256x256, .f32⟩ : BufTy).Contents (Elt Ideal))
  (x4 : (⟨S256, .f32⟩ : BufTy).Contents (Elt Ideal))

/-- The reference's max (E, 0) is the positive part. -/
theorem relu_eq : val_main_v4 (F := Ideal) x0 = positivePart (F := Ideal) (s := S300000x256) x0 := rfl

/-- The reference's edge rows before the linear map are the host chain's result on the positive part of E. -/
theorem mixed_eq : val_main_v22 (F := Ideal) x0 x1 x2 = mix (positivePart (F := Ideal) (s := S300000x256) x0) x1 x2 := rfl

/-- The bias as a one-row matrix, read at (0, q), is the bias at q. -/
theorem bias_row (q : Fin 256) :
    shapeCast Cert.KernelIdeal.S1x256 x4 Cert.KernelIdeal.Gen.shapeCasts_S256_S1x256 (ix2 (0 : Fin 1) q) = x4 (ix1 q) :=
  shapeCast_apply x4 Cert.KernelIdeal.Gen.shapeCasts_S256_S1x256 (ix2 (0 : Fin 1) q) (ix1 q)
    (by rw [Shape.rowMajor_val_two, Shape.rowMajor_val_one]; show q.val = 0 * 256 + q.val; omega)

/-- The reference's result, entry by entry, is the linear map on rows of the mixed positive part. -/
theorem result_eq : val_main_v27 (F := Ideal) x0 x1 x2 x3 x4
    = linearRows (M := 300000) (N := 256) (K := 256) (mix (positivePart (F := Ideal) (s := S300000x256) x0) x1 x2) x3
        (shapeCast Cert.KernelIdeal.S1x256 x4 Cert.KernelIdeal.Gen.shapeCasts_S256_S1x256) := by
  funext i
  obtain ⟨r, q, rfl⟩ : ∃ (r : Fin 300000) (q : Fin 256), i = ix2 r q := ⟨i 0, i 1, eq_ix2 i⟩
  rw [val_main_v27_apply, val_main_v24_apply, val_main_v26_apply, val_main_v25_apply, linearRows_apply, mixed_eq,
    bias_row, Ideal.addf_def]
  refine congrArg₂ (· + ·) (Finset.sum_congr rfl fun k _ => ?_) ?_
  · rw [val_main_v23_apply]
    have e1 : lidx_main_v24 (ix2 r q) k = ix2 r k :=
      funext fun a => Fin.ext (by match a with | ⟨0, _⟩ => rfl | ⟨1, _⟩ => rfl)
    have e2 : idx_main_v23 (ridx_main_v24 (ix2 r q) k) = ix2 q k :=
      funext fun a => Fin.ext (by match a with | ⟨0, _⟩ => rfl | ⟨1, _⟩ => rfl)
    rw [e1, e2]
  · exact congrArg x4 (funext fun a => Fin.ext (by match a with | ⟨0, _⟩ => rfl))

end Cert.ReferenceIdeal.RefValue

end
-- ==== Proof.lean ====
/-
  One message-passing step on a directed graph with 300000 edges, 50000 nodes and 256 features: the Pallas program
  against its jnp reference, equal over the extended reals.

  Both programs compute, for every edge e,
      out e = (mix (max (E, 0))) e · Wᵀ + b,
  where mix sums the rows of max (E, 0) into their destination nodes, reads the node sums back at each edge's source
  node and subtracts the reverse edge's row. The Pallas program takes max (·, 0) in a first kernel (sixty row blocks),
  runs mix on the host with the very operations the reference uses, and applies the linear map in a second kernel
  (sixty row blocks; both operands narrowed to bf16, which is the identity on extended reals; the weight contracted on
  its last axis). The reference transposes the weight and contracts its first axis. Entry by entry both are
      Σ_k (mix (max (E, 0))) (e, k) · W (j, k) + b j
  with the terms in the same order, so no law of the extended reals beyond reading the two sides at an index is used and
  the finiteness of the inputs is never opened.

  Modules: EdgeSpec (the two ends as functions of whole arrays), HostMix (the shared host chain as one function),
  ReluRegion and LinearRegion (each kernel's output array after its run), KernelRun (the run with its result named),
  KernelValue (the Pallas program's result as a function of its arguments), RefValue (the reference's result is the
  same function). The ideal pass rewrote nothing, so `preserves` is `True`.
-/
import proofs.«158213_j1760936591674_1_alg».proof.Defs
import proofs.«158213_j1760936591674_1_alg».proof.Proof.Gen.Kernel
import proofs.«158213_j1760936591674_1_alg».proof.Proof.Gen.Kernel.Frame
import proofs.«158213_j1760936591674_1_alg».proof.Proof.Gen.KernelIdeal
import proofs.«158213_j1760936591674_1_alg».proof.Proof.Gen.KernelIdeal.Frame
import proofs.«158213_j1760936591674_1_alg».proof.Proof.Gen.ReferenceIdeal
import proofs.«158213_j1760936591674_1_alg».proof.Proof.Gen.ReferenceIdeal.Run
import proofs.«158213_j1760936591674_1_alg».proof.Proof.Gen.ReferenceIdeal.Read
import proofs.«158213_j1760936591674_1_alg».proof.Proof.Gen.Pre_finite_inputs
import proofs.«158213_j1760936591674_1_alg».proof.Proof.KernelValue
import proofs.«158213_j1760936591674_1_alg».proof.Proof.RefValue

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does the program read over the extended reals. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized program is the printed one read over the extended reals: no operation was rewritten. -/
theorem preserves : Cert.preserves_Kernel_KernelIdeal := trivial

/-- From memories that agree on the arguments both programs end with the same result array: the Pallas program's is
    the linear map on rows of the mixed positive part of E, and so is the reference's. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4, Cert.ReferenceIdeal.Read.val_main_v27_eq]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
